-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x4096x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S32768x512 : Shape := ⟨2, ![32768, 512]⟩
abbrev S1024x128 : Shape := ⟨2, ![1024, 128]⟩
abbrev S1024x512 : Shape := ⟨2, ![1024, 512]⟩
abbrev S1024x8 : Shape := ⟨2, ![1024, 8]⟩
abbrev S1x8 : Shape := ⟨2, ![1, 8]⟩
abbrev S1024x2048 : Shape := ⟨2, ![1024, 2048]⟩
abbrev S1x2048 : Shape := ⟨2, ![1, 2048]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S32768x512, .f32⟩
  | .hbm, ⟨7, _⟩ => ⟨S32768x512, .f32⟩
  | .hbm, ⟨8, _⟩ => ⟨S8x4096x512, .f32⟩
  | .local _ .vmem, ⟨0, _⟩ => ⟨S1024x128, .f32⟩
  | .local _ .vmem, ⟨1, _⟩ => ⟨S1024x128, .f32⟩
  | .local _ .vmem, ⟨2, _⟩ => ⟨S8, .f32⟩
  | .local _ .vmem, ⟨3, _⟩ => ⟨S2048x8, .f32⟩
  | .local _ .vmem, ⟨4, _⟩ => ⟨S2048, .f32⟩
  | .local _ .vmem, ⟨5, _⟩ => ⟨S512x2048, .f32⟩
  | .local _ .vmem, ⟨6, _⟩ => ⟨S512, .f32⟩
  | .local _ .vmem, ⟨7, _⟩ => ⟨S1024x512, .f32⟩
  | .local _ .vmem, ⟨8, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x512_S32768x512 : S8x4096x512.ShapeCasts S32768x512
  inb_S1024x128_S1024x8_0_0 : ∀ a, (![0, 0] : Fin 2 → Nat) a + S1024x8.size a ≤ S1024x128.size a
  h_S1024x8 : 0 < S1024x8.numel
  shapeCasts_S1024x8_S1024x8 : S1024x8.ShapeCasts S1024x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  bitsLt_bf16_f32 : FTy.bits .bf16 < FTy.bits .f32
  inb_S2048x8_S2048x8_0_0 : ∀ a, (![0, 0] : Fin 2 → Nat) a + S2048x8.size a ≤ S2048x8.size a
  h_S2048x8 : 0 < S2048x8.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S512x2048_S512x2048_0_0 : ∀ a, (![0, 0] : Fin 2 → Nat) a + S512x2048.size a ≤ S512x2048.size a
  h_S512x2048 : 0 < S512x2048.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S32768x512_S8x4096x512 : S32768x512.ShapeCasts S8x4096x512
  dot_S1024x8_S2048x8_S1024x2048_1_1_0_0_n_n_wf : DotDims.WF S1024x8 S2048x8 S1024x2048 [1] [1] [0] [0] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x512.size a
  hwx0_0 : ∀ i : grid0.Coords, EltTy.bits .f32 = 32 ∨ (Rect.block (s := S32768x512) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x8.size a ≤ S2048x8.size a
  hwx0_2 : ∀ i : grid0.Coords, EltTy.bits .f32 = 32 ∨ (Rect.block (s := S2048x8) S2048x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x8_S2048x8_S1024x2048_1_1_0_0_n_n : DotDims S1024x8 S2048x8 S1024x2048 where
  lhsContracting := [1]
  rhsContracting := [1]
  lhsNonContracting := [0]
  rhsNonContracting := [0]
  lhsBatch := []
  rhsBatch := []
  wf := dot_S1024x8_S2048x8_S1024x2048_1_1_0_0_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x4096x8 : Shape := ⟨3, ![8, 4096, 8]⟩
abbrev S1x1x8 : Shape := ⟨3, ![1, 1, 8]⟩
abbrev S8x4096x2048 : Shape := ⟨3, ![8, 4096, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x2048, .f32⟩
  | .hbm, ⟨13, _⟩ => ⟨S1x1x2048, .f32⟩
  | .hbm, ⟨14, _⟩ => ⟨S8x4096x2048, .f32⟩
  | .hbm, ⟨15, _⟩ => ⟨S8x4096x2048, .f32⟩
  | .hbm, ⟨16, _⟩ => ⟨S_, .f32⟩
  | .hbm, ⟨17, _⟩ => ⟨S8x4096x2048, .f32⟩
  | .hbm, ⟨18, _⟩ => ⟨S8x4096x2048, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.TokenMlp.lean ====
/-
  The function both programs compute, one token at a time.

  A token is a row of 512 channels of which only the first eight, `u₀ … u₇`, are read. Its eight features are
  `cos u_q · cos θ_q`; a hidden layer of 2048 units takes `h_k = max (Σ_q feature_q · W1[k, q] + b1[k]) 0`; and output
  channel `e` is `Σ_k h_k · W2[e, k] + b2[e]`. Everything is on the extended reals: the cosine is the ideal one, the
  sums are finite sums, `max` is the order's, and the zero of the rectifier is the float zero word's value.

  The result array has one such row per token: token `(b, s)` of the `8 × 4096` tokens reads `x[b, s, 0 … 7]`.
-/
import Idealize.ShloMosaic.PureOps.Ideal
import Idealize.ShloMosaic.Lib.ValueIdx

noncomputable section

namespace Cert.TokenMlp

open Idealize.ShloMosaic Idealize.ShloMosaic.ValueIdx

/-- Hidden unit `k` of the token whose first eight channels are `u`: the rectified affine image of its features. -/
def hidden (u : Fin 8 → EReal) (θ : (⟨1, ![8]⟩ : Shape).Idx → EReal) (W1 : (⟨2, ![2048, 8]⟩ : Shape).Idx → EReal)
    (b1 : (⟨1, ![2048]⟩ : Shape).Idx → EReal) (k : Fin 2048) : EReal :=
  max ((∑ q : Fin 8, Ideal.cos (u q) * Ideal.cos (θ (ix1 q)) * W1 (ix2 k q)) + b1 (ix1 k)) (Ideal.ofBits .f32 0x00000000#32)

/-- Output channel `e` of that token: the affine image of its hidden layer. -/
def out (u : Fin 8 → EReal) (θ : (⟨1, ![8]⟩ : Shape).Idx → EReal) (W1 : (⟨2, ![2048, 8]⟩ : Shape).Idx → EReal)
    (b1 : (⟨1, ![2048]⟩ : Shape).Idx → EReal) (W2 : (⟨2, ![512, 2048]⟩ : Shape).Idx → EReal)
    (b2 : (⟨1, ![512]⟩ : Shape).Idx → EReal) (e : Fin 512) : EReal :=
  (∑ k : Fin 2048, hidden u θ W1 b1 k * W2 (ix2 e k)) + b2 (ix1 e)

/-- Channel `q < 8` as one of the 512 channels of a token. -/
abbrev chan (q : Fin 8) : Fin 512 := Fin.castLE (by decide) q

/-- The whole result: at `(b, s, e)`, output channel `e` of token `(b, s)`. -/
def result (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal) :
    (⟨3, ![8, 4096, 512]⟩ : Shape).Idx → EReal :=
  fun i => out (fun q => x (ix3 (i 0) (i 1) (chan q))) θ W1 b1 W2 b2 (i 2)

end Cert.TokenMlp

end
-- ==== Proof.ReferenceRows.lean ====
/-
  The reference computes the specification.

  Read one entry `(b, s, e)` of the reference's result back through its operations: the last sum adds the second
  bias at `e` to a contraction over the 2048 hidden units of token `(b, s)`, each the maximum with zero of the first
  bias plus a contraction over the eight features, each feature the product of two cosines: of channel `q` of the
  token (the slice keeps channels 0 … 7) and of angle `q`. The broadcasts only repeat a vector along the token axes,
  so each reads at its last coordinate. That is output channel `e` of token `(b, s)`, term by term.
-/
import proofs.«171379_j65481071395240_1_alg».proof.Proof.Gen.ReferenceIdeal.Read
import proofs.«171379_j65481071395240_1_alg».proof.Proof.TokenMlp

noncomputable section

namespace Cert.ReferenceIdeal.Rows

open Cert.ReferenceIdeal Cert.ReferenceIdeal.Gen Cert.ReferenceIdeal.Read Idealize.ShloMosaic Idealize.ShloMosaic.TcCoe
  Idealize.ShloMosaic.ValueIdx

/-- The hidden unit `k` of the token at `i`'s first two coordinates, as an index of the hidden array. -/
abbrev unit (i : S8x4096x512.Idx) (k : Fin 2048) : S8x4096x2048.Idx := lidx_main_v11 i k

theorem bias2_at (i : S8x4096x512.Idx) : idx_main_v12 (idx_main_v13 i) = ix1 (i 2) :=
  funext fun a => Fin.ext (by match a with | ⟨0, _⟩ => rfl)

theorem weight2_at (i : S8x4096x512.Idx) (k : Fin 2048) : ridx_main_v11 i k = ix2 (i 2) k :=
  funext fun a => Fin.ext (by match a with | ⟨0, _⟩ => rfl | ⟨1, _⟩ => rfl)

theorem bias1_at (i : S8x4096x512.Idx) (k : Fin 2048) : idx_main_v7 (idx_main_v8 (unit i k)) = ix1 k :=
  funext fun a => Fin.ext (by match a with | ⟨0, _⟩ => rfl)

theorem weight1_at (i : S8x4096x512.Idx) (k : Fin 2048) (q : Fin 8) : ridx_main_v6 (unit i k) q = ix2 k q :=
  funext fun a => Fin.ext (by match a with | ⟨0, _⟩ => rfl | ⟨1, _⟩ => rfl)

theorem channel_at (i : S8x4096x512.Idx) (k : Fin 2048) (q : Fin 8) :
    idx_main_v0 (lidx_main_v6 (unit i k) q) = ix3 (i 0) (i 1) (Cert.TokenMlp.chan q) :=
  funext fun a => Fin.ext (by match a with | ⟨0, _⟩ => rfl | ⟨1, _⟩ => rfl | ⟨2, _⟩ => rfl)

theorem angle_at (i : S8x4096x512.Idx) (k : Fin 2048) (q : Fin 8) :
    idx_main_v3 (idx_main_v4 (lidx_main_v6 (unit i k) q)) = ix1 q :=
  funext fun a => Fin.ext (by match a with | ⟨0, _⟩ => rfl)

/-- The reference's last stage is the specification of the six argument arrays. -/
theorem stage_eq (x0 : (⟨S8x4096x512, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S512x2048, .f32⟩ : BufTy).Contents (Elt Ideal)) (x5 : (⟨S512, .f32⟩ : BufTy).Contents (Elt Ideal)) :
    val_main_v14 (F := Ideal) x0 x1 x2 x3 x4 x5 = Cert.TokenMlp.result x0 x1 x2 x3 x4 x5 := by
  funext i
  unfold Cert.TokenMlp.result Cert.TokenMlp.out
  rw [val_main_v14_apply, val_main_v11_apply, val_main_v13_apply, val_main_v12_apply, bias2_at]
  refine congrArg₂ (· + ·) (Finset.sum_congr rfl fun k _ => ?_) rfl
  rw [weight2_at]
  refine congrArg₂ (· * ·) ?_ rfl
  unfold Cert.TokenMlp.hidden
  rw [val_main_v10_apply, val_main_v9_apply, val_main_v6_apply, val_main_v8_apply, val_main_v7_apply,
    val_main_call0_v0_apply, val_main_call0_cst_apply, bias1_at]
  refine congrArg₂ max (congrArg₂ (· + ·) (Finset.sum_congr rfl fun q _ => ?_) rfl) rfl
  rw [val_main_v5_apply, val_main_v1_apply, val_main_v0_apply, val_main_v4_apply, val_main_v3_apply, val_main_v2_apply,
    weight1_at, channel_at, angle_at]
  rfl

end Cert.ReferenceIdeal.Rows

end
-- ==== Proof.KernelRows.lean ====
/-
  The kernel's arithmetic at one entry of its output block.

  At a grid point the body holds a block of 1024 tokens (their first eight channels `v0`), the angles `v2`, and the
  two layers' weights and biases whole. Its one stored value, read at row `p` and column `e` of the block, is output
  channel `e` of the token in row `p`: the two matrix products into zero accumulators are plain finite sums over the
  contracted axis, the changes of float format are the identity on the extended reals, and the biases and the angles'
  cosines, laid out as one row and repeated down the block, read at their column.
-/
import proofs.«171379_j65481071395240_1_alg».proof.Proof.Gen.KernelIdeal.Skeleton
import proofs.«171379_j65481071395240_1_alg».proof.Proof.TokenMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.ShloMosaic.ValueIdx

/-! ## The first product: features × first-layer weights, contracted over the eight features -/

theorem lhs_first_0 (i : S1024x2048.Idx) (q : dot_S1024x8_S2048x8_S1024x2048_1_1_0_0_n_n.contr.Idx) :
    (dot_S1024x8_S2048x8_S1024x2048_1_1_0_0_n_n.lhsIdx i q 0).val = (i 0).val := by
  unfold DotDims.lhsIdx
  rw [dif_neg (show ¬(0 : Fin S1024x8.rank) ∈ dot_S1024x8_S2048x8_S1024x2048_1_1_0_0_n_n.lhsBatch by decide), dif_pos (show (0 : Fin S1024x8.rank) ∈ dot_S1024x8_S2048x8_S1024x2048_1_1_0_0_n_n.lhsNonContracting by decide)]
  rfl
theorem lhs_first_1 (i : S1024x2048.Idx) (q : dot_S1024x8_S2048x8_S1024x2048_1_1_0_0_n_n.contr.Idx) :
    (dot_S1024x8_S2048x8_S1024x2048_1_1_0_0_n_n.lhsIdx i q 1).val = (q ⟨0, by decide⟩).val :=
  dot_S1024x8_S2048x8_S1024x2048_1_1_0_0_n_n.lhsIdx_val_of_single rfl i q
theorem rhs_first_0 (i : S1024x2048.Idx) (q : dot_S1024x8_S2048x8_S1024x2048_1_1_0_0_n_n.contr.Idx) :
    (dot_S1024x8_S2048x8_S1024x2048_1_1_0_0_n_n.rhsIdx i q 0).val = (i 1).val := by
  unfold DotDims.rhsIdx
  rw [dif_neg (show ¬(0 : Fin S2048x8.rank) ∈ dot_S1024x8_S2048x8_S1024x2048_1_1_0_0_n_n.rhsBatch by decide), dif_pos (show (0 : Fin S2048x8.rank) ∈ dot_S1024x8_S2048x8_S1024x2048_1_1_0_0_n_n.rhsNonContracting by decide)]
  rfl
theorem rhs_first_1 (i : S1024x2048.Idx) (q : dot_S1024x8_S2048x8_S1024x2048_1_1_0_0_n_n.contr.Idx) :
    (dot_S1024x8_S2048x8_S1024x2048_1_1_0_0_n_n.rhsIdx i q 1).val = (q ⟨0, by decide⟩).val :=
  dot_S1024x8_S2048x8_S1024x2048_1_1_0_0_n_n.rhsIdx_val_of_single rfl i q

/-- The first product at row `p`, hidden unit `k`: the sum over the eight features of row `p` of the left operand
    times row `k` of the right. -/
theorem first_apply (l : FVec Ideal S1024x8 .bf16) (r : FVec Ideal S2048x8 .bf16) (p : Fin 1024) (k : Fin 2048) :
    matmul dot_S1024x8_S2048x8_S1024x2048_1_1_0_0_n_n none l r (constant S1024x2048 .f32 0x00000000#32) (ix2 p k)
      = ∑ q : Fin 8, l (ix2 p q) * r (ix2 k q) := by
  simp only [matmul]
  rw [Ideal.matmul_constant_zero_apply, ← Equiv.sum_comp (ValueIdx.contrEquiv1 dot_S1024x8_S2048x8_S1024x2048_1_1_0_0_n_n 8 rfl rfl).symm]
  refine Finset.sum_congr rfl fun q _ => ?_
  have hq := ValueIdx.contrEquiv1_symm_val dot_S1024x8_S2048x8_S1024x2048_1_1_0_0_n_n 8 rfl rfl q
  have el : dot_S1024x8_S2048x8_S1024x2048_1_1_0_0_n_n.lhsIdx (ix2 p k) ((ValueIdx.contrEquiv1 dot_S1024x8_S2048x8_S1024x2048_1_1_0_0_n_n 8 rfl rfl).symm q) = ix2 p q := funext fun a => Fin.ext (by
    match a with
    | ⟨0, _⟩ => exact lhs_first_0 _ _
    | ⟨1, _⟩ => exact (lhs_first_1 _ _).trans hq)
  have er : dot_S1024x8_S2048x8_S1024x2048_1_1_0_0_n_n.rhsIdx (ix2 p k) ((ValueIdx.contrEquiv1 dot_S1024x8_S2048x8_S1024x2048_1_1_0_0_n_n 8 rfl rfl).symm q) = ix2 k q := funext fun a => Fin.ext (by
    match a with
    | ⟨0, _⟩ => exact rhs_first_0 _ _
    | ⟨1, _⟩ => exact (rhs_first_1 _ _).trans hq)
  rw [el, er]

/-! ## The second product: hidden layer × second-layer weights, contracted over the 2048 hidden units -/

theorem lhs_second_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem lhs_second_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
theorem rhs_second_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem rhs_second_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The second product at row `p`, output channel `e`: the sum over the hidden units of row `p` of the left operand
    times row `e` of the right. -/
theorem second_apply (l : FVec Ideal S1024x2048 .bf16) (r : FVec Ideal S512x2048 .bf16) (p : Fin 1024) (e : Fin 512) :
    matmul dot_S1024x2048_S512x2048_S1024x512_1_1_0_0_n_n none l r (constant S1024x512 .f32 0x00000000#32) (ix2 p e)
      = ∑ k : Fin 2048, l (ix2 p k) * r (ix2 e k) := by
  simp only [matmul]
  rw [Ideal.matmul_constant_zero_apply, ← Equiv.sum_comp (ValueIdx.contrEquiv1 dot_S1024x2048_S512x2048_S1024x512_1_1_0_0_n_n 2048 rfl rfl).symm]
  refine Finset.sum_congr rfl fun k _ => ?_
  have hk := ValueIdx.contrEquiv1_symm_val dot_S1024x2048_S512x2048_S1024x512_1_1_0_0_n_n 2048 rfl rfl k
  have el : dot_S1024x2048_S512x2048_S1024x512_1_1_0_0_n_n.lhsIdx (ix2 p e) ((ValueIdx.contrEquiv1 dot_S1024x2048_S512x2048_S1024x512_1_1_0_0_n_n 2048 rfl rfl).symm k) = ix2 p k := funext fun a => Fin.ext (by
    match a with
    | ⟨0, _⟩ => exact lhs_second_0 _ _
    | ⟨1, _⟩ => exact (lhs_second_1 _ _).trans hk)
  have er : dot_S1024x2048_S512x2048_S1024x512_1_1_0_0_n_n.rhsIdx (ix2 p e) ((ValueIdx.contrEquiv1 dot_S1024x2048_S512x2048_S1024x512_1_1_0_0_n_n 2048 rfl rfl).symm k) = ix2 e k := funext fun a => Fin.ext (by
    match a with
    | ⟨0, _⟩ => exact rhs_second_0 _ _
    | ⟨1, _⟩ => exact (rhs_second_1 _ _).trans hk)
  rw [el, er]

/-! ## One row repeated down the block -/

/-- A vector laid out as one row and repeated down `a` rows reads, at `(p, c)`, the vector at `c`. -/
theorem row_repeated {a b : ℕ} (v : (⟨1, ![b]⟩ : Shape).Idx → EReal) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ v h₁) h₂ (ix2 p c) = v (ix1 c) :=
  (broadcastTo_1b_ab_apply _ h₂ p c).trans (shapeCast_a_1a_apply v h₁ 0 c)

/-! ## The stored value at an entry of the block -/

/-- Row `p`, column `e` of what the body stores is output channel `e` of the token in row `p` of the block. -/
theorem stored_apply (v0 : Vec Ideal S1024x8 .f32) (v2 : Vec Ideal S8 .f32) (v9 : Vec Ideal S2048x8 .f32)
    (v12 : Vec Ideal S2048 .f32) (v19 : Vec Ideal S512x2048 .f32) (v22 : Vec Ideal S512 .f32) (p : Fin 1024) (e : Fin 512) :
    k0_pay1 (F := Ideal) v0 v2 v9 v12 v19 v22 (ix2 p e)
      = Cert.TokenMlp.out (fun q => v0 (ix2 p q)) v2 v9 v12 v19 v22 e := by
  unfold k0_pay1 Cert.TokenMlp.out
  refine (addf_apply _ _ _).trans ?_
  refine congrArg₂ (· + ·) ((second_apply _ _ p e).trans (Finset.sum_congr rfl fun k _ => ?_)) (row_repeated v22 _ _ p e)
  refine congrArg₂ (· * ·) ?_ rfl
  unfold Cert.TokenMlp.hidden
  refine (maximumf_apply _ _ _).trans ?_
  refine congrArg₂ max ((addf_apply _ _ _).trans ?_) rfl
  refine congrArg₂ (· + ·) ((first_apply _ _ p k).trans (Finset.sum_congr rfl fun q _ => ?_)) (row_repeated v12 _ _ p k)
  refine congrArg₂ (· * ·) ((mulf_apply _ _ _).trans ?_) rfl
  refine congrArg₂ (· * ·) ?_ ?_
  · rw [shapeCast_self]
    rfl
  · exact row_repeated (cos (F := Ideal) (s := S8) (φ := .f32) v2) shapeCasts_S8_S1x8 broadcasts_S1x8_S1024x8 p q

end Cert.KernelIdeal.Rows

end
-- ==== Proof.Blocks.lean ====
/-
  From the blocks to the whole array of tokens.

  The launch walks 32 grid points; point `t` stages rows `1024·t … 1024·t + 1023` of the token array (its first 128
  channels), the angles and both layers whole, and writes back the same rows of the result. A row of the block the
  body stores depends only on the same row of the staged tokens, so what point `t` writes back is rows
  `1024·t …` of ONE function of the arrays as the launch finds them: at `(r, e)`, output channel `e` of the token in
  row `r`. The 32 blocks tile the 32768 rows (row `r` lies in block `r / 1024`), so after the launch the result array
  is that function everywhere.
-/
import proofs.«171379_j65481071395240_1_alg».proof.Proof.Gen.KernelIdeal.Frame
import proofs.«171379_j65481071395240_1_alg».proof.Proof.KernelRows
import proofs.«171379_j65481071395240_1_alg».proof.Proof.TokenMlp
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Channel `q < 8` among the 128 channels a block stages. -/
abbrev blockChan (q : Fin 8) : Fin 128 := Fin.castLE (by decide) q

/-- One output row per row of the token array: at `(r, e)`, output channel `e` of the token in row `r`. -/
def rows (X : S32768x512.Idx → EReal) (θ : S8.Idx → EReal) (W1 : S2048x8.Idx → EReal) (b1 : S2048.Idx → EReal)
    (W2 : S512x2048.Idx → EReal) (b2 : S512.Idx → EReal) : S32768x512.Idx → EReal :=
  fun i => Cert.TokenMlp.out (fun q => X (ix2 (i 0) (Cert.TokenMlp.chan q))) θ W1 b1 W2 b2 (i 1)

theorem zeros1 : (![0] : Fin 1 → Nat) = fun _ => 0 := funext fun a => by fin_cases a <;> rfl
theorem zeros2 : (![0, 0] : Fin 2 → Nat) = fun _ => 0 := funext fun a => by fin_cases a <;> rfl

/-- The body's first load takes the first eight of the block's 128 staged channels, every row. -/
theorem first_channels (x0 : Vec Ideal S1024x128 .f32) (p : Fin 1024) (q : Fin 8) :
    View.ld x0 r0_0 (ix2 p q) = x0 (ix2 p (blockChan q)) :=
  congrArg x0 (funext fun a => Fin.ext (by
    match a with
    | ⟨0, _⟩ => show 0 + 1 * p.val = p.val; omega
    | ⟨1, _⟩ => show 0 + 1 * q.val = q.val; omega))

/-- An entry of the stored block is an entry of `rows` of the arrays, as soon as the staged tokens' row is the
    array's row (`hx`), the staged parameters are the arrays (`h1 … h5`) and the columns agree (`he`). -/
theorem block_entry (x0 : Vec Ideal S1024x128 .f32) (x1 : Vec Ideal S8 .f32) (x2 : Vec Ideal S2048x8 .f32)
    (x3 : Vec Ideal S2048 .f32) (x4 : Vec Ideal S512x2048 .f32) (x5 : Vec Ideal S512 .f32)
    (X : S32768x512.Idx → EReal) (θ : S8.Idx → EReal) (W1 : S2048x8.Idx → EReal) (b1 : S2048.Idx → EReal)
    (W2 : S512x2048.Idx → EReal) (b2 : S512.Idx → EReal)
    (j : S1024x512.Idx) (i : S32768x512.Idx)
    (hx : ∀ q : Fin 8, x0 (ix2 (j 0) (blockChan q)) = X (ix2 (i 0) (Cert.TokenMlp.chan q)))
    (h1 : x1 = θ) (h2 : x2 = W1) (h3 : x3 = b1) (h4 : x4 = W2) (h5 : x5 = b2) (he : (j 1).val = (i 1).val) :
    k0_pay1 (F := Ideal) (View.ld x0 r0_0) x1 x2 x3 x4 x5 j = rows X θ W1 b1 W2 b2 i := by
  subst h1 h2 h3 h4 h5
  obtain ⟨p, e, rfl⟩ : ∃ (p : Fin 1024) (e : Fin 512), j = ix2 p e := ⟨j 0, j 1, eq_ix2 j⟩
  refine (Cert.KernelIdeal.Rows.stored_apply _ x1 x2 x3 x4 x5 p e).trans ?_
  unfold rows
  have hu : (fun q => View.ld x0 r0_0 (ix2 p q)) = fun q => X (ix2 (i 0) (Cert.TokenMlp.chan q)) :=
    funext fun q => (first_channels x0 p q).trans (hx q)
  rw [hu]
  exact congrArg (Cert.TokenMlp.out _ x1 x2 x3 x4 x5) (Fin.ext he)

/-- The printed index maps, decided over the grid: the token and result windows move one block of rows per point and
    stay at column block 0; every parameter window stays at block 0. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## A parameter's block is its whole array -/

theorem angles_whole (c : Dev nD) (t : Fin cfg0.N) : (iblk m c 1 t : S8.Idx → EReal) = V m c main_arg1 := by
  funext y
  show V m c main_arg1 (((cfg0.win 1).blk t).view.emb y) = V m c main_arg1 y
  have h : ((cfg0.win 1).blk t).view.emb y = y := by
    funext a; apply Fin.ext
    obtain ⟨_, _, e1, _⟩ := idx_facts t
    match a with
    | ⟨0, _⟩ => show win0_1.index t (0 : Fin 1) * 8 + 1 * (y 0).val = (y 0).val; omega
  rw [h]

theorem weights1_whole (c : Dev nD) (t : Fin cfg0.N) : (iblk m c 2 t : S2048x8.Idx → EReal) = V m c main_arg2 := by
  funext y
  show V m c main_arg2 (((cfg0.win 2).blk t).view.emb y) = V m c main_arg2 y
  have h : ((cfg0.win 2).blk t).view.emb y = y := by
    funext a; apply Fin.ext
    obtain ⟨_, _, _, e20, e21, _⟩ := idx_facts t
    match a with
    | ⟨0, _⟩ => show win0_2.index t (0 : Fin 2) * 2048 + 1 * (y 0).val = (y 0).val; omega
    | ⟨1, _⟩ => show win0_2.index t (1 : Fin 2) * 8 + 1 * (y 1).val = (y 1).val; omega
  rw [h]

theorem bias1_whole (c : Dev nD) (t : Fin cfg0.N) : (iblk m c 3 t : S2048.Idx → EReal) = V m c main_arg3 := by
  funext y
  show V m c main_arg3 (((cfg0.win 3).blk t).view.emb y) = V m c main_arg3 y
  have h : ((cfg0.win 3).blk t).view.emb y = y := by
    funext a; apply Fin.ext
    obtain ⟨_, _, _, _, _, e3, _⟩ := idx_facts t
    match a with
    | ⟨0, _⟩ => show win0_3.index t (0 : Fin 1) * 2048 + 1 * (y 0).val = (y 0).val; omega
  rw [h]

theorem weights2_whole (c : Dev nD) (t : Fin cfg0.N) : (iblk m c 4 t : S512x2048.Idx → EReal) = V m c main_arg4 := by
  funext y
  show V m c main_arg4 (((cfg0.win 4).blk t).view.emb y) = V m c main_arg4 y
  have h : ((cfg0.win 4).blk t).view.emb y = y := by
    funext a; apply Fin.ext
    obtain ⟨_, _, _, _, _, _, e40, e41, _⟩ := idx_facts t
    match a with
    | ⟨0, _⟩ => show win0_4.index t (0 : Fin 2) * 512 + 1 * (y 0).val = (y 0).val; omega
    | ⟨1, _⟩ => show win0_4.index t (1 : Fin 2) * 2048 + 1 * (y 1).val = (y 1).val; omega
  rw [h]

theorem bias2_whole (c : Dev nD) (t : Fin cfg0.N) : (iblk m c 5 t : S512.Idx → EReal) = V m c main_arg5 := by
  funext y
  show V m c main_arg5 (((cfg0.win 5).blk t).view.emb y) = V m c main_arg5 y
  have h : ((cfg0.win 5).blk t).view.emb y = y := by
    funext a; apply Fin.ext
    obtain ⟨_, _, _, _, _, _, _, _, e5, _⟩ := idx_facts t
    match a with
    | ⟨0, _⟩ => show win0_5.index t (0 : Fin 1) * 512 + 1 * (y 0).val = (y 0).val; omega
  rw [h]

/-! ## What a point writes back -/

/-- Point `t` writes back block `t` of `rows` of the arrays as the launch finds them. -/
theorem flushed_eq (c : Dev nD) (t : Fin cfg0.N) :
    (dats m 0 c).flushed 6 t = ((cfg0.win 6).blk t).view.read (Elt Ideal)
      (rows (V m c main_v0) (V m c main_arg1) (V m c main_arg2) (V m c main_arg3) (V m c main_arg4) (V m c main_arg5)) := by
  show (cfg0.win 6).cut (grid0.coords t) ((dats m 0 c).after 6 t) = _
  rw [after0_6]
  unfold out0_6
  rw [View.canon_unit_zero zeros2]
  simp only [View.ld_unit_zero (S := S8) zeros1, View.ld_unit_zero (S := S2048x8) zeros2, View.ld_unit_zero (S := S2048) zeros1,
    View.ld_unit_zero (S := S512x2048) zeros2, View.ld_unit_zero (S := S512) zeros1]
  obtain ⟨e00, e01, _, _, _, _, _, _, _, e60, e61⟩ := idx_facts t
  funext j
  show k0_pay1 (F := Ideal) (View.ld (iblk m c 0 t) r0_0) (iblk m c 1 t) (iblk m c 2 t) (iblk m c 3 t) (iblk m c 4 t) (iblk m c 5 t) j
    = rows (V m c main_v0) (V m c main_arg1) (V m c main_arg2) (V m c main_arg3) (V m c main_arg4) (V m c main_arg5)
        (((cfg0.win 6).blk t).view.emb j)
  refine block_entry (iblk m c 0 t) (iblk m c 1 t) (iblk m c 2 t) (iblk m c 3 t) (iblk m c 4 t) (iblk m c 5 t)
    (V m c main_v0) (V m c main_arg1) (V m c main_arg2) (V m c main_arg3) (V m c main_arg4) (V m c main_arg5)
    j (((cfg0.win 6).blk t).view.emb j) (fun q => ?_)
    (angles_whole m c t) (weights1_whole m c t) (bias1_whole m c t) (weights2_whole m c t) (bias2_whole m c t) ?_
  · show V m c main_v0 (((cfg0.win 0).blk t).view.emb (ix2 (j 0) (blockChan q))) = _
    have h : ((cfg0.win 0).blk t).view.emb (ix2 (j 0) (blockChan q))
        = ix2 ((((cfg0.win 6).blk t).view.emb j) 0) (Cert.TokenMlp.chan q) := by
      funext a; apply Fin.ext
      match a with
      | ⟨0, _⟩ => show win0_0.index t (0 : Fin 2) * 1024 + 1 * (j 0).val = win0_6.index t (0 : Fin 2) * 1024 + 1 * (j 0).val; omega
      | ⟨1, _⟩ => show win0_0.index t (1 : Fin 2) * 128 + 1 * q.val = q.val; omega
    rw [h]
    rfl
  · show (j 1).val = win0_6.index t (1 : Fin 2) * 512 + 1 * (j 1).val
    omega

/-! ## The blocks tile the rows -/

/-- An index of the result array is in point `t`'s block iff each coordinate is in the block's range on its axis. -/
theorem mem_blk (t : Fin cfg0.N) (i : S32768x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v1).slice (win0_6.rect t)).set ↔ _
  rw [View.set_slice_whole, Rect.mem_set_unit]
  exact Iff.rfl

/-- Row `r` of the result is written back by point `r / 1024`. -/
theorem cover (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have hN : grid0.N = 32 := N_0
  have hlt : (i 0).val / 1024 < cfg0.N := by show (i 0).val / 1024 < grid0.N; omega
  obtain ⟨_, _, _, _, _, _, _, _, _, e60, e61⟩ := idx_facts ⟨(i 0).val / 1024, hlt⟩
  refine ⟨⟨(i 0).val / 1024, hlt⟩, flush0_6 _, ?_⟩
  rw [mem_blk]
  intro a
  have e60' : win0_6.index ⟨(i 0).val / 1024, hlt⟩ (0 : Fin 2) = (i 0).val / 1024 := e60
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    omega
  | ⟨1, _⟩ =>
    show win0_6.index ⟨(i 0).val / 1024, hlt⟩ (1 : Fin 2) * 512 ≤ (i 1).val ∧ (i 1).val < win0_6.index ⟨(i 0).val / 1024, hlt⟩ (1 : Fin 2) * 512 + 512
    omega

/-- The result array after the launch: `rows` of the arrays as the launch finds them. -/
theorem result_rows (c : Dev nD) :
    (dats m 0 c).arrAt 6 cfg0.N
      = rows (V m c main_v0) (V m c main_arg1) (V m c main_arg2) (V m c main_arg3) (V m c main_arg4) (V m c main_arg5) :=
  (dats m 0 c).arrAt_eq_of_cover 6 _ (fun t _ => flushed_eq m c t) cover

end Cert.KernelIdeal.Blocks

end
-- ==== Proof.Program.lean ====
/-
  The kernel's program around its launch, and its run.

  Before the launch the program lays the `8 × 4096` tokens out as `32768` rows; after it, it lays the `32768` result
  rows back out as `8 × 4096`. Both are changes of shape in row-major order, and token `(b, s)` is row `4096·b + s`:
  the two positions are the same number, so the row the launch computes for it lands back at `(b, s)`, and the
  program's result is the specification of its six arguments. The arguments themselves end unchanged.
-/
import proofs.«171379_j65481071395240_1_alg».proof.Proof.Gen.KernelIdeal.Frame
import proofs.«171379_j65481071395240_1_alg».proof.Proof.Blocks
import proofs.«171379_j65481071395240_1_alg».proof.Proof.TokenMlp
import Idealize.ShloMosaic.Lib.Pipeline.Value
import Idealize.ShloMosaic.Lib.StableHlo.Run
import Idealize.ShloMosaic.Lib.ValueIdx

set_option maxRecDepth 16384

noncomputable section

namespace Cert.KernelIdeal.Program

open Cert.KernelIdeal Cert.KernelIdeal.Gen Cert.KernelIdeal.Blocks Idealize.ShloMosaic Idealize.ShloMosaic.TcCoe
open Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-- Rows of the reshaped tokens, reshaped back, are the specification: token `(b, s)` is row `4096·b + s`, and both
    changes of shape keep the row-major position. -/
theorem reshaped_rows (x : S8x4096x512.Idx → EReal) (θ : S8.Idx → EReal) (W1 : S2048x8.Idx → EReal) (b1 : S2048.Idx → EReal)
    (W2 : S512x2048.Idx → EReal) (b2 : S512.Idx → EReal)
    (h₀ : S8x4096x512.ShapeCasts S32768x512) (h₁ : S32768x512.ShapeCasts S8x4096x512) :
    shapeCast S8x4096x512 (rows (shapeCast S32768x512 x h₀) θ W1 b1 W2 b2) h₁ = Cert.TokenMlp.result x θ W1 b1 W2 b2 := by
  funext i
  obtain ⟨b, s, e, rfl⟩ : ∃ (b : Fin 8) (s : Fin 4096) (e : Fin 512), i = ix3 b s e := ⟨i 0, i 1, i 2, eq_ix3 i⟩
  have hr : b.val * 4096 + s.val < 32768 := by have := b.isLt; have := s.isLt; omega
  refine (shapeCast_apply _ h₁ (ix3 b s e) (ix2 ⟨b.val * 4096 + s.val, hr⟩ e) ?_).trans ?_
  · rw [Shape.rowMajor_val_two, Shape.rowMajor_val_three]
    rfl
  · unfold rows Cert.TokenMlp.result
    refine congrArg (fun u => Cert.TokenMlp.out u θ W1 b1 W2 b2 e) (funext fun q => ?_)
    refine shapeCast_apply x h₀ _ (ix3 b s (Cert.TokenMlp.chan q)) ?_
    rw [Shape.rowMajor_val_two, Shape.rowMajor_val_three]
    rfl

theorem rows_congr {X X' : S32768x512.Idx → EReal} {θ θ' : S8.Idx → EReal} {W1 W1' : S2048x8.Idx → EReal}
    {b1 b1' : S2048.Idx → EReal} {W2 W2' : S512x2048.Idx → EReal} {b2 b2' : S512.Idx → EReal}
    (hX : X = X') (hθ : θ = θ') (hW1 : W1 = W1') (hb1 : b1 = b1') (hW2 : W2 = W2') (hb2 : b2 = b2') :
    rows X θ W1 b1 W2 b2 = rows X' θ' W1' b1' W2' b2' := by
  subst hX hθ hW1 hb1 hW2 hb2; rfl

/-- The token array as the launch finds it: the first argument in row-major order at `32768 × 512`. -/
theorem tokens_eq (c : Dev nD) :
    (V m c main_v0 : S32768x512.Idx → EReal)
      = shapeCast S32768x512 (m ((c : Thread nD τ).loc main_arg0)) shapeCasts_S8x4096x512_S32768x512 := by
  show StableHlo.after hostOps0 (fun b => m (c, b)) (Proc.devRef .tc main_v0) = _
  after_results
  rfl

/-- The program's result buffer after the lines that follow the launch: the launch's result array in row-major order at
    `8 × 4096 × 512`. -/
theorem tail_eq (c : Dev nD) :
    (Pipeline.afterTail₀ cfgs (dats m) 0 (V0 m) [hostOps1] c main_v2 : S8x4096x512.Idx → EReal)
      = shapeCast S8x4096x512 ((dats m 0 c).arrAt 6 cfg0.N) shapeCasts_S32768x512_S8x4096x512 := by
  unfold Pipeline.afterTail₀
  show StableHlo.after hostOps1 _ (Proc.devRef .tc main_v2) = _
  after_results
  rw [Pipeline.withArrays_arr spec0 launch0.win.arr_inj c _ _ 6]
  rfl

/-- The program's result is the specification of its arguments as launched. -/
theorem value (c : Dev nD) :
    (Pipeline.afterTail₀ cfgs (dats m) 0 (V0 m) [hostOps1] c main_v2 : S8x4096x512.Idx → EReal)
      = Cert.TokenMlp.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [tail_eq, result_rows,
    rows_congr (tokens_eq m c) (V_main_arg1 m c) (V_main_arg2 m c) (V_main_arg3 m c) (V_main_arg4 m c) (V_main_arg5 m c)]
  exact reshaped_rows _ _ _ _ _ _ _ _

/-- Every weakly fair execution of the kernel's program terminates with its result buffer at the specification of the
    arguments and the arguments unchanged. -/
theorem run : θ_run defs (onTc (τ := τ) (main (F := Ideal))) ⟨m, fun _ => 0, ρ⟩ (fun r => ∀ c : Dev nD,
      r.2.mem ((c.tc : Thread nD τ).loc main_v2)
        = Cert.TokenMlp.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v2 (Pipeline.mem_restRefs_of main_v2 (by decide) (by decide))).trans (value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Program

end
-- ==== Proof.lean ====
/-
  A two-layer network applied token by token to features made of cosines, as one tiled kernel and as a plain array
  program: the two compute the same function of their arguments on the extended reals.

  Per token, from its first eight channels `u` and eight angles `θ`: features `cos u_q · cos θ_q`; 2048 hidden units
  `max (Σ_q feature_q · W1[k, q] + b1[k]) 0`; 512 outputs `Σ_k hidden_k · W2[e, k] + b2[e]` (Proof/TokenMlp.lean).
  The kernel does this for 1024 tokens per grid point with both products as matrix products into zero accumulators
  (Proof/KernelRows.lean), its 32 blocks tile the token rows (Proof/Blocks.lean), and the changes of shape around the
  launch only renumber tokens in row-major order (Proof/Program.lean). The reference contracts over the same two axes
  token by token (Proof/ReferenceRows.lean). Both sides multiply and add the same extended reals in the same
  arrangement — a contraction is the same finite sum on either side, only indexed through a different shape — so no
  law that needs finiteness is used, and the precondition is never opened. The frames are the generated ones; the
  reference's is its generated run with the result dropped; the idealization rewrote nothing.
-/
import proofs.«171379_j65481071395240_1_alg».proof.Defs
import proofs.«171379_j65481071395240_1_alg».proof.Proof.Gen.Kernel
import proofs.«171379_j65481071395240_1_alg».proof.Proof.Gen.Kernel.Skeleton
import proofs.«171379_j65481071395240_1_alg».proof.Proof.Gen.Kernel.Launch
import proofs.«171379_j65481071395240_1_alg».proof.Proof.Gen.Kernel.Points
import proofs.«171379_j65481071395240_1_alg».proof.Proof.Gen.Kernel.Frame
import proofs.«171379_j65481071395240_1_alg».proof.Proof.Gen.KernelIdeal
import proofs.«171379_j65481071395240_1_alg».proof.Proof.Gen.KernelIdeal.Skeleton
import proofs.«171379_j65481071395240_1_alg».proof.Proof.Gen.KernelIdeal.Launch
import proofs.«171379_j65481071395240_1_alg».proof.Proof.Gen.KernelIdeal.Points
import proofs.«171379_j65481071395240_1_alg».proof.Proof.Gen.KernelIdeal.Frame
import proofs.«171379_j65481071395240_1_alg».proof.Proof.Gen.ReferenceIdeal
import proofs.«171379_j65481071395240_1_alg».proof.Proof.Gen.Pre_finite_inputs
import proofs.«171379_j65481071395240_1_alg».proof.Proof.Gen.ReferenceIdeal.Run
import proofs.«171379_j65481071395240_1_alg».proof.Proof.Gen.ReferenceIdeal.Read
import proofs.«171379_j65481071395240_1_alg».proof.Proof.TokenMlp
import proofs.«171379_j65481071395240_1_alg».proof.Proof.ReferenceRows
import proofs.«171379_j65481071395240_1_alg».proof.Proof.Program
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the six arguments both programs end with their result at the token-by-token network
    of those arguments: the kernel by its run (Proof/Program.lean), the reference by its generated run read one
    operation at a time (Proof/ReferenceRows.lean). -/
theorem algebraic : Cert.algebraic_KernelIdeal_ReferenceIdeal := by
  intro m ρ m' ρ' _ hagree
  refine ⟨_, Cert.KernelIdeal.Program.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Rows.stage_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
